-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x64 : Shape := ⟨3, ![32, 1024, 64]⟩
abbrev S32x1024x1024 : Shape := ⟨3, ![32, 1024, 1024]⟩
abbrev S32x1024x1 : Shape := ⟨3, ![32, 1024, 1]⟩
abbrev S64x128 : Shape := ⟨2, ![64, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S32x1024x64 : S_.BroadcastsInDim S32x1024x64 (![] : Fin 0 → Fin S32x1024x64.rank)
  reducesTo_S32x1024x64_S_d0_1_2 : S32x1024x64.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1024x1 : S_.BroadcastsInDim S32x1024x1 (![] : Fin 0 → Fin S32x1024x1.rank)
  reducesTo_S32x1024x1_S_d0_1_2 : S32x1024x1.ReducesTo [0, 1, 2] S_
  bcast_S_S64x128 : S_.BroadcastsInDim S64x128 (![] : Fin 0 → Fin S64x128.rank)
  reducesTo_S64x128_S_d0_1 : S64x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S3x128x128 .f32) (main_arg5 : FVec F S3x128 .f32) (main_arg6 : FVec F S128x64 .f32) (main_arg7 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_v33

def fn {F : FTy → Type} [FloatOps F] (main_arg0 : FVec F S32x1024x64 .f32) (main_arg1 : FVec F S32x1024x1024 .f32) (main_arg2 : FVec F S32x1024x1 .f32) (main_arg3 : FVec F S64x128 .f32) (main_arg4 : FVec F S3x128x128 .f32) (main_arg5 : FVec F S3x128 .f32) (main_arg6 : FVec F S128x64 .f32) (main_arg7 : FVec F S64 .f32) : IVec S_ 1 :=
  let main_v0 : FVec F S32x1024x64 .f32 := Host.absf main_arg0
  let main_cst : FVec F S_ .f32 := constant S_ .f32 0x7F800000#32
  let main_v1 : FVec F S32x1024x64 .f32 := broadcastInDim S32x1024x64 ![] bcast_S_S32x1024x64 main_cst
  let main_v2 : IVec S32x1024x64 1 := cmpf .olt main_v0 main_v1
  let main_c : IVec S_ 1 := constantI S_ 1 1#1
  let main_v3 : IVec S_ 1 := (fun x v => Host.reduce IntOp.andi x v reducesTo_S32x1024x64_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024x1 .f32 := Host.absf main_arg2
  let main_cst_2 : FVec F S_ .f32 := constant S_ .f32 0x7F800000#32
  let main_v10 : FVec F S32x1024x1 .f32 := broadcastInDim S32x1024x1 ![] bcast_S_S32x1024x1 main_cst_2
  let main_v11 : IVec S32x1024x1 1 := cmpf .olt main_v9 main_v10
  let main_c_3 : IVec S_ 1 := constantI S_ 1 1#1
  let main_v12 : IVec S_ 1 := (fun x v => Host.reduce IntOp.andi x v reducesTo_S32x1024x1_S_d0_1_2 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_v13 main_v16
-- ==== Kernel.lean ====
abbrev S32x1024x64 : Shape := ⟨3, ![32, 1024, 64]⟩
abbrev S32x1024x1024 : Shape := ⟨3, ![32, 1024, 1024]⟩
abbrev S32x1024x1 : Shape := ⟨3, ![32, 1024, 1]⟩
abbrev S64x128 : Shape := ⟨2, ![64, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x1024x64 : Shape := ⟨3, ![1, 1024, 64]⟩
abbrev S1x1024x1024 : Shape := ⟨3, ![1, 1024, 1024]⟩
abbrev S1x1024x1 : Shape := ⟨3, ![1, 1024, 1]⟩
abbrev S1024x64 : Shape := ⟨2, ![1024, 64]⟩
abbrev S1024x128 : Shape := ⟨2, ![1024, 128]⟩
abbrev S1024x1024 : Shape := ⟨2, ![1024, 1024]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x64 : Shape := ⟨2, ![1, 64]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S32x1024x1, .f32⟩
  | .hbm, ⟨3, _⟩ => ⟨S64x128, .f32⟩
  | .hbm, ⟨4, _⟩ => ⟨S3x128x128, .f32⟩
  | .hbm, ⟨5, _⟩ => ⟨S3x128, .f32⟩
  | .hbm, ⟨6, _⟩ => ⟨S128x64, .f32⟩
  | .hbm, ⟨7, _⟩ => ⟨S64, .f32⟩
  | .hbm, ⟨8, _⟩ => ⟨S32x1024x64, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1, .f32⟩
  | .local _ .vmem, ⟨5, _⟩ => ⟨S1x1024x1, .f32⟩
  | .local _ .vmem, ⟨6, _⟩ => ⟨S64x128, .f32⟩
  | .local _ .vmem, ⟨7, _⟩ => ⟨S3x128x128, .f32⟩
  | .local _ .vmem, ⟨8, _⟩ => ⟨S3x128, .f32⟩
  | .local _ .vmem, ⟨9, _⟩ => ⟨S128x64, .f32⟩
  | .local _ .vmem, ⟨10, _⟩ => ⟨S64, .f32⟩
  | .local _ .vmem, ⟨11, _⟩ => ⟨S1x1024x64, .f32⟩
  | .local _ .vmem, ⟨12, _⟩ => ⟨S1x1024x64, .f32⟩
  | _, _ => ⟨S32x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S1024x128 : S1x128.Broadcasts S1024x128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x64 : S1024x1.Broadcasts S1024x64
  shapeCasts_S1024x64_S1x1024x64 : S1024x64.ShapeCasts S1x1024x64
  dot_S1024x64_S64x128_S1024x128_1_0_0_1_n_n_wf : DotDims.WF S1024x64 S64x128 S1024x128 [1] [0] [0] [1] [] []
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x1024x64.size a
  hwx0_0 : ∀ i : grid0.Coords, EltTy.bits .f32 = 32 ∨ (Rect.block (s := S32x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S32x1024x1.size a
  hwx0_2 : ∀ i : grid0.Coords, EltTy.bits .f32 = 32 ∨ (Rect.block (s := S32x1024x1) S1x1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x128.size a ≤ S3x128x128.size a
  hwx0_4 : ∀ i : grid0.Coords, EltTy.bits .f32 = 32 ∨ (Rect.block (s := S3x128x128) S3x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x64.size a ≤ S32x1024x64.size a
  hwx0_8 : ∀ i : grid0.Coords, EltTy.bits .f32 = 32 ∨ (Rect.block (s := S32x1024x64) S1x1024x64.size (cc0_transform_8 i) (hinb0_8 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x1024x64 : Shape := ⟨3, ![32, 1024, 64]⟩
abbrev S32x1024x1024 : Shape := ⟨3, ![32, 1024, 1024]⟩
abbrev S32x1024x1 : Shape := ⟨3, ![32, 1024, 1]⟩
abbrev S64x128 : Shape := ⟨2, ![64, 128]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S32x1024x128 : Shape := ⟨3, ![32, 1024, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x128 : Shape := ⟨3, ![1, 1, 128]⟩
abbrev S_ : Shape := ⟨0, ![]⟩
abbrev S1x1x64 : Shape := ⟨3, ![1, 1, 64]⟩

abbrev nBuf : Space → Nat
  | .hbm => 60
  | .vmem => 0
  | .smem => 0
  | _ => 0

abbrev bufTy : (tb : Table) → Fin (tcTables nBuf tb) → BufTy
  | .hbm, ⟨0, _⟩ => ⟨S32x1024x64, .f32⟩
  | .hbm, ⟨1, _⟩ => ⟨S32x1024x1024, .f32⟩
  | .hbm, ⟨2, _⟩ => ⟨S32x1024x1, .f32⟩
  | .hbm, ⟨3, _⟩ => ⟨S64x128, .f32⟩
  | .hbm, ⟨4, _⟩ => ⟨S3x128x128, .f32⟩
  | .hbm, ⟨5, _⟩ => ⟨S3x128, .f32⟩
  | .hbm, ⟨6, _⟩ => ⟨S128x64, .f32⟩
  | .hbm, ⟨7, _⟩ => ⟨S64, .f32⟩
  | .hbm, ⟨8, _⟩ => ⟨S32x1024x128, .f32⟩
  | .hbm, ⟨9, _⟩ => ⟨S1x128x128, .f32⟩
  | .hbm, ⟨10, _⟩ => ⟨S128x128, .f32⟩
  | .hbm, ⟨11, _⟩ => ⟨S32x1024x128, .f32⟩
  | .hbm, ⟨12, _⟩ => ⟨S1x128, .f32⟩
  | .hbm, ⟨13, _⟩ => ⟨S128, .f32⟩
  | .hbm, ⟨14, _⟩ => ⟨S1x1x128, .f32⟩
  | .hbm, ⟨15, _⟩ => ⟨S32x1024x128, .f32⟩
  | .hbm, ⟨16, _⟩ => ⟨S32x1024x128, .f32⟩
  | .hbm, ⟨17, _⟩ => ⟨S32x1024x128, .f32⟩
  | .hbm, ⟨18, _⟩ => ⟨S_, .f32⟩
  | .hbm, ⟨19, _⟩ => ⟨S32x1024x128, .f32⟩
  | .hbm, ⟨20, _⟩ => ⟨S32x1024x128, .f32⟩
  | .hbm, ⟨21, _⟩ => ⟨S_, .f32⟩
  | .hbm, ⟨22, _⟩ => ⟨S32x1024x128, .f32⟩
  | .hbm, ⟨23, _⟩ => ⟨S32x1024x128, .f32⟩
  | .hbm, ⟨24, _⟩ => ⟨S1x128x128, .f32⟩
  | .hbm, ⟨25, _⟩ => ⟨S128x128, .f32⟩
  | .hbm, ⟨26, _⟩ => ⟨S32x1024x128, .f32⟩
  | .hbm, ⟨27, _⟩ => ⟨S1x128, .f32⟩
  | .hbm, ⟨28, _⟩ => ⟨S128, .f32⟩
  | .hbm, ⟨29, _⟩ => ⟨S1x1x128, .f32⟩
  | .hbm, ⟨30, _⟩ => ⟨S32x1024x128, .f32⟩
  | .hbm, ⟨31, _⟩ => ⟨S32x1024x128, .f32⟩
  | .hbm, ⟨32, _⟩ => ⟨S32x1024x128, .f32⟩
  | .hbm, ⟨33, _⟩ => ⟨S_, .f32⟩
  | .hbm, ⟨34, _⟩ => ⟨S32x1024x128, .f32⟩
  | .hbm, ⟨35, _⟩ => ⟨S32x1024x128, .f32⟩
  | .hbm, ⟨36, _⟩ => ⟨S_, .f32⟩
  | .hbm, ⟨37, _⟩ => ⟨S32x1024x128, .f32⟩
  | .hbm, ⟨38, _⟩ => ⟨S32x1024x128, .f32⟩
  | .hbm, ⟨39, _⟩ => ⟨S1x128x128, .f32⟩
  | .hbm, ⟨40, _⟩ => ⟨S128x128, .f32⟩
  | .hbm, ⟨41, _⟩ => ⟨S32x1024x128, .f32⟩
  | .hbm, ⟨42, _⟩ => ⟨S1x128, .f32⟩
  | .hbm, ⟨43, _⟩ => ⟨S128, .f32⟩
  | .hbm, ⟨44, _⟩ => ⟨S1x1x128, .f32⟩
  | .hbm, ⟨45, _⟩ => ⟨S32x1024x128, .f32⟩
  | .hbm, ⟨46, _⟩ => ⟨S32x1024x128, .f32⟩
  | .hbm, ⟨47, _⟩ => ⟨S32x1024x128, .f32⟩
  | .hbm, ⟨48, _⟩ => ⟨S_, .f32⟩
  | .hbm, ⟨49, _⟩ => ⟨S32x1024x128, .f32⟩
  | .hbm, ⟨50, _⟩ => ⟨S32x1024x128, .f32⟩
  | .hbm, ⟨51, _⟩ => ⟨S_, .f32⟩
  | .hbm, ⟨52, _⟩ => ⟨S32x1024x128, .f32⟩
  | .hbm, ⟨53, _⟩ => ⟨S32x1024x128, .f32⟩
  | .hbm, ⟨54, _⟩ => ⟨S32x1024x64, .f32⟩
  | .hbm, ⟨55, _⟩ => ⟨S1x1x64, .f32⟩
  | .hbm, ⟨56, _⟩ => ⟨S32x1024x64, .f32⟩
  | .hbm, ⟨57, _⟩ => ⟨S32x1024x64, .f32⟩
  | .hbm, ⟨58, _⟩ => ⟨S32x1024x64, .f32⟩
  | .hbm, ⟨59, _⟩ => ⟨S32x1024x64, .f32⟩
  | _, _ => ⟨S32x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_call1_cst : Ref sig .tc := ⟨.hbm, 36, rfl⟩
abbrev main_call1_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_1 : Ref sig .tc := ⟨.hbm, 48, rfl⟩
abbrev main_v34 : Ref sig .tc := ⟨.hbm, 49, rfl⟩
abbrev main_v35 : Ref sig .tc := ⟨.hbm, 50, rfl⟩
abbrev main_call2_cst : Ref sig .tc := ⟨.hbm, 51, rfl⟩
abbrev main_call2_v0 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  bcast_S_S32x1024x128 : S_.BroadcastsInDim S32x1024x128 (![] : Fin 0 → Fin S32x1024x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x1x64_2 : S64.BroadcastsInDim S1x1x64 (![2] : Fin 1 → Fin S1x1x64.rank)
  bcast_S1x1x64_S32x1024x64_0_1_2 : S1x1x64.BroadcastsInDim S32x1024x64 (![0, 1, 2] : Fin 3 → Fin S32x1024x64.rank)
  bcast_S32x1024x1_S32x1024x64_0_1_2 : S32x1024x1.BroadcastsInDim S32x1024x64 (![0, 1, 2] : Fin 3 → Fin S32x1024x64.rank)
  dot_S32x1024x64_S64x128_S32x1024x128_2_0_01_1_n_n_wf : DotDims.WF S32x1024x64 S64x128 S32x1024x128 [2] [0] [0, 1] [1] [] []
  dot_S32x1024x128_S128x128_S32x1024x128_2_0_01_1_n_n_wf : DotDims.WF S32x1024x128 S128x128 S32x1024x128 [2] [0] [0, 1] [1] [] []
  dot_S32x1024x1024_S32x1024x128_S32x1024x128_2_1_1_2_0_0_wf : DotDims.WF S32x1024x1024 S32x1024x128 S32x1024x128 [2] [1] [1] [2] [0] [0]
  dot_S32x1024x128_S128x64_S32x1024x64_2_0_01_1_n_n_wf : DotDims.WF S32x1024x128 S128x64 S32x1024x64 [2] [0] [0, 1] [1] [] []

variable [Facts₀]

def dot_S32x1024x64_S64x128_S32x1024x128_2_0_01_1_n_n : DotDims S32x1024x64 S64x128 S32x1024x128 where
  lhsContracting := [2]
  rhsContracting := [0]
  lhsNonContracting := [0, 1]
  rhsNonContracting := [1]
  lhsBatch := []
  rhsBatch := []
  wf := dot_S32x1024x64_S64x128_S32x1024x128_2_0_01_1_n_n_wf
def dot_S32x1024x128_S128x128_S32x1024x128_2_0_01_1_n_n : DotDims S32x1024x128 S128x128 S32x1024x128 where
  lhsContracting := [2]
  rhsContracting := [0]
  lhsNonContracting := [0, 1]
  rhsNonContracting := [1]
  lhsBatch := []
  rhsBatch := []
  wf := dot_S32x1024x128_S128x128_S32x1024x128_2_0_01_1_n_n_wf
def dot_S32x1024x1024_S32x1024x128_S32x1024x128_2_1_1_2_0_0 : DotDims S32x1024x1024 S32x1024x128 S32x1024x128 where
  lhsContracting := [2]
  rhsContracting := [1]
  lhsNonContracting := [1]
  rhsNonContracting := [2]
  lhsBatch := [0]
  rhsBatch := [0]
  wf := dot_S32x1024x1024_S32x1024x128_S32x1024x128_2_1_1_2_0_0_wf
def dot_S32x1024x128_S128x64_S32x1024x64_2_0_01_1_n_n : DotDims S32x1024x128 S128x64 S32x1024x64 where
  lhsContracting := [2]
  rhsContracting := [0]
  lhsNonContracting := [0, 1]
  rhsNonContracting := [1]
  lhsBatch := []
  rhsBatch := []
  wf := dot_S32x1024x128_S128x64_S32x1024x64_2_0_01_1_n_n_wf

class Facts : Prop extends Facts₀ where

variable [Facts]
-- ==== Proof.Layers.lean ====
/-
  The graph network one batch element at a time, as functions of extended-real arrays, index by index.

  For one batch element with node features `x` (1024 × 64), adjacency `A` (1024 × 1024) and node mask `mk`
  (1024 × 1), and weights shared by all batch elements, the network is
    h₀      = x · W_embed
    g_l     = h_l · Wl[l] + bl[l]                       (l = 0, 1, 2)
    h_{l+1} = max ((A · g_l) / 1, 0)
    out     = (h₃ · W_proj + b_proj) · mk   (the mask's one column broadcast over the 64 output columns).
  Every matrix product is the plain sum over the contracted index of the products of the entries; sums and
  products are the extended reals', so the definitions make sense whatever the entries are. The whole-array
  function `network` reads batch element `b`'s slabs of the three batched arrays and applies `encoder`.
-/
import Idealize.ShloMosaic.PureOps.Ideal
import Idealize.ShloMosaic.Lib.ValueIdx

noncomputable section

open scoped BigOperators

namespace Cert.Gnn

open Idealize.ShloMosaic Idealize.ShloMosaic.ValueIdx

/-- The f32 word of 1.0 as an extended real (the normalisation factor both programs divide by). -/
abbrev oneWord : EReal := Ideal.ofBits .f32 0x3F800000#32
/-- The f32 word of 0.0 as an extended real (the ReLU's threshold). -/
abbrev zeroWord : EReal := Ideal.ofBits .f32 0x00000000#32

/-- Batch element `b`'s slab of a batched rank-3 array: entry `(n, d)` is the array's `(b, n, d)`. -/
def slab {B N D : Nat} (b : Fin B) (f : (⟨3, ![B, N, D]⟩ : Shape).Idx → EReal) :
    (⟨2, ![N, D]⟩ : Shape).Idx → EReal :=
  fun j => f (ix3 b (j 0) (j 1))

/-- Layer `l`'s weight matrix out of the stacked weights: entry `(h, k)` is `Wl[l, h, k]`. -/
def layerW (l : Nat) (hl : l < 3) (W : (⟨3, ![3, 128, 128]⟩ : Shape).Idx → EReal) :
    (⟨2, ![128, 128]⟩ : Shape).Idx → EReal :=
  fun j => W (ix3 (⟨l, hl⟩ : Fin 3) (j 0) (j 1))

/-- Layer `l`'s bias out of the stacked biases: entry `k` is `bl[l, k]`. -/
def layerB (l : Nat) (hl : l < 3) (b : (⟨2, ![3, 128]⟩ : Shape).Idx → EReal) :
    (⟨1, ![128]⟩ : Shape).Idx → EReal :=
  fun j => b (ix2 (⟨l, hl⟩ : Fin 3) (j 0))

/-- The embedding `x · W_embed`: entry `(n, h)` is `∑ i, x[n, i] · W_embed[i, h]`. -/
def embed (x : (⟨2, ![1024, 64]⟩ : Shape).Idx → EReal) (w : (⟨2, ![64, 128]⟩ : Shape).Idx → EReal) :
    (⟨2, ![1024, 128]⟩ : Shape).Idx → EReal :=
  fun j => ∑ k : Fin 64, x (ix2 (j 0) k) * w (ix2 k (j 1))

/-- A layer's message `h · W + b`: entry `(n, k)` is `∑ i, h[n, i] · W[i, k] + b[k]`. -/
def message (h : (⟨2, ![1024, 128]⟩ : Shape).Idx → EReal) (w : (⟨2, ![128, 128]⟩ : Shape).Idx → EReal)
    (b : (⟨1, ![128]⟩ : Shape).Idx → EReal) : (⟨2, ![1024, 128]⟩ : Shape).Idx → EReal :=
  fun j => (∑ k : Fin 128, h (ix2 (j 0) k) * w (ix2 k (j 1))) + b (ix1 (j 1))

/-- A layer's aggregation and activation `max ((A · g) / 1, 0)`: entry `(n, k)` sums `A[n, m] · g[m, k]` over the
    nodes `m`. -/
def aggregate (a : (⟨2, ![1024, 1024]⟩ : Shape).Idx → EReal) (g : (⟨2, ![1024, 128]⟩ : Shape).Idx → EReal) :
    (⟨2, ![1024, 128]⟩ : Shape).Idx → EReal :=
  fun j => max (Ideal.div (∑ k : Fin 1024, a (ix2 (j 0) k) * g (ix2 k (j 1))) oneWord) zeroWord

/-- The latent projection, masked: entry `(n, k)` is `(∑ i, h[n, i] · W_proj[i, k] + b_proj[k]) · mk[n, 0]`. -/
def project (h : (⟨2, ![1024, 128]⟩ : Shape).Idx → EReal) (w : (⟨2, ![128, 64]⟩ : Shape).Idx → EReal)
    (b : (⟨1, ![64]⟩ : Shape).Idx → EReal) (mk : (⟨2, ![1024, 1]⟩ : Shape).Idx → EReal) :
    (⟨2, ![1024, 64]⟩ : Shape).Idx → EReal :=
  fun j => ((∑ k : Fin 128, h (ix2 (j 0) k) * w (ix2 k (j 1))) + b (ix1 (j 1))) * mk (ix2 (j 0) (0 : Fin 1))

/-- The network on one batch element. -/
def encoder (x : (⟨2, ![1024, 64]⟩ : Shape).Idx → EReal) (a : (⟨2, ![1024, 1024]⟩ : Shape).Idx → EReal)
    (mk : (⟨2, ![1024, 1]⟩ : Shape).Idx → EReal) (we : (⟨2, ![64, 128]⟩ : Shape).Idx → EReal)
    (wl : (⟨3, ![3, 128, 128]⟩ : Shape).Idx → EReal) (bl : (⟨2, ![3, 128]⟩ : Shape).Idx → EReal)
    (wp : (⟨2, ![128, 64]⟩ : Shape).Idx → EReal) (bp : (⟨1, ![64]⟩ : Shape).Idx → EReal) :
    (⟨2, ![1024, 64]⟩ : Shape).Idx → EReal :=
  project
    (aggregate a (message
      (aggregate a (message
        (aggregate a (message (embed x we) (layerW 0 (by decide) wl) (layerB 0 (by decide) bl)))
        (layerW 1 (by decide) wl) (layerB 1 (by decide) bl)))
      (layerW 2 (by decide) wl) (layerB 2 (by decide) bl)))
    wp bp mk

/-- The network on the whole batch: entry `(b, n, k)` is batch element `b`'s `encoder` at `(n, k)`. -/
def network (x : (⟨3, ![32, 1024, 64]⟩ : Shape).Idx → EReal) (a : (⟨3, ![32, 1024, 1024]⟩ : Shape).Idx → EReal)
    (mk : (⟨3, ![32, 1024, 1]⟩ : Shape).Idx → EReal) (we : (⟨2, ![64, 128]⟩ : Shape).Idx → EReal)
    (wl : (⟨3, ![3, 128, 128]⟩ : Shape).Idx → EReal) (bl : (⟨2, ![3, 128]⟩ : Shape).Idx → EReal)
    (wp : (⟨2, ![128, 64]⟩ : Shape).Idx → EReal) (bp : (⟨1, ![64]⟩ : Shape).Idx → EReal) :
    (⟨3, ![32, 1024, 64]⟩ : Shape).Idx → EReal :=
  fun i => encoder (slab (B := 32) (N := 1024) (D := 64) (i 0) x) (slab (B := 32) (N := 1024) (D := 1024) (i 0) a)
    (slab (B := 32) (N := 1024) (D := 1) (i 0) mk) we wl bl wp bp (ix2 (i 1) (i 2))

end Cert.Gnn

end
-- ==== Proof.LibPlainMatmul.lean ====
/-
  Two general facts about vector operations read at an entry, at the ideal instance (floats are extended reals).

  * A plain `M × K` by `K × N` matrix product on the matrix unit into a zero accumulator, read at entry `(r, c)`,
    is the sum over `k` of `x[r, k] · w[k, c]`: the unit's dimension numbers contract the left operand's second axis
    with the right operand's first, so re-indexing the one-axis contraction by its coordinate gives the textbook sum.
  * A column (`[a, 1]`) broadcast to `[a, b]`, read at `(p, c)`, is the column's entry at row `p`.
-/
import Idealize.ShloMosaic.PureOps.Ideal.Laws
import Idealize.ShloMosaic.Lib.ValueIdx
import Idealize.ShloMosaic.Lib.Pipeline.Value

noncomputable section

open scoped BigOperators

namespace Cert.Gnn

open Idealize.ShloMosaic Idealize.ShloMosaic.ValueIdx

/-- The left operand's row coordinate is the result's row coordinate. -/
theorem plain_lhs_row (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the result's column coordinate. -/
theorem plain_rhs_col (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain matrix product into a zero accumulator, read at an entry, is the sum over the contracted index of the
    operands' products. -/
theorem plain_matmul_apply {φ₁ φ₂ : FTy} (M K N : Nat) (prec : Option ContractPrecision)
    (x : FVec Ideal ⟨2, ![M, K]⟩ φ₁) (w : FVec Ideal ⟨2, ![K, N]⟩ φ₂) (j : (⟨2, ![M, N]⟩ : Shape).Idx) :
    FloatOps.matmul (DotDims.plain M K N) prec x w (constant ⟨2, ![M, N]⟩ .f32 0x00000000#32) j
      = ∑ k : Fin K, x (ix2 (j 0) k) * w (ix2 k (j 1)) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs_row M K N _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact plain_rhs_col M K N _ _)
  rw [el, er]
  rfl

/-- A column broadcast over a row axis: an `[a, 1]` array broadcast to `[a, b]` reads, at `(p, c)`, the column's
    entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gnn

end
-- ==== Proof.KernelBlock.lean ====
/-
  The kernel body's stored block is the network of one batch element.

  At a grid point the body reads one batch element's node features, adjacency and mask (each a block with a
  leading unit axis) and the shared weights whole, and stores one block of the result. Its arithmetic is, stage for
  stage, `Layers`' one-element network: a narrowing of the float format is the identity on extended reals; each
  matrix-unit product into a zero accumulator is the plain sum over the contracted index; dropping a block's
  leading unit axis takes its one slab; a bias row broadcast over the nodes reads the bias at the column; the
  mask's column broadcast over the outputs reads the mask at the row. Layer `l`'s weights and bias are loaded
  through the rectangle at offset `l` of the stacked arrays, which reads row `l`.
-/
import proofs.«103890_j28114855919656_1_alg».proof.Proof.Gen.KernelIdeal.Frame
import proofs.«103890_j28114855919656_1_alg».proof.Proof.Layers
import proofs.«103890_j28114855919656_1_alg».proof.Proof.LibPlainMatmul
import Idealize.ShloMosaic.Lib.ValueLayout
import Idealize.ShloMosaic.Lib.Pipeline.Value

noncomputable section

open scoped BigOperators

namespace Cert.Gnn.Kernel

open Cert.KernelIdeal Cert.KernelIdeal.Gen Idealize.ShloMosaic Idealize.ShloMosaic.TcCoe Idealize.SL.Sem
open Idealize.ShloMosaic.ValueIdx Cert.Gnn

/-! ## Small layout facts -/

/-- A narrowing of the float format is the identity on extended reals. -/
theorem truncf_ideal {s : Shape} {φ ψ : FTy} (a : FVec Ideal s φ) (h : ψ.bits < φ.bits) :
    (truncf ψ a h : FVec Ideal s ψ) = a := rfl

/-- Dropping a leading unit axis takes the one slab. -/
theorem dropUnit {a b : ℕ} (x : (⟨3, ![1, a, b]⟩ : Shape).Idx → EReal)
    (h : (⟨3, ![1, a, b]⟩ : Shape).ShapeCasts ⟨2, ![a, b]⟩) :
    shapeCast ⟨2, ![a, b]⟩ x h = slab (0 : Fin 1) x := by
  funext j
  obtain ⟨p, q, rfl⟩ : ∃ (p : Fin a) (q : Fin b), j = ix2 p q := ⟨j 0, j 1, eq_ix2 j⟩
  exact shapeCast_1ab_ab_apply x h p q

/-- The one row of a `[1, n]` array as a vector. -/
def row0 {n : ℕ} (v : (⟨2, ![1, n]⟩ : Shape).Idx → EReal) : (⟨1, ![n]⟩ : Shape).Idx → EReal :=
  fun j => v (ix2 (0 : Fin 1) (j 0))

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- Loading the rectangle at offset `l` of the stacked weights and dropping its unit axis gives layer `l`'s matrix. -/
theorem loadW (l : Nat) (hl : l < 3) (x4 : Vec Ideal S3x128x128 .f32)
    (inb : ∀ a, (![l, 0, 0] : Fin 3 → Nat) a + S1x128x128.size a ≤ S3x128x128.size a) :
    slab (0 : Fin 1) (View.ld x4 (Rect.unit (s := S3x128x128) ![l, 0, 0] S1x128x128.size inb)) = layerW l hl x4 := by
  funext j
  show x4 ((Rect.unit (s := S3x128x128) ![l, 0, 0] S1x128x128.size inb).emb (ix3 (0 : Fin 1) (j 0) (j 1))) = x4 (ix3 (⟨l, hl⟩ : Fin 3) (j 0) (j 1))
  refine congrArg x4 (funext fun a => Fin.ext ?_)
  match a with
  | ⟨0, _⟩ => show l + 1 * 0 = l; omega
  | ⟨1, _⟩ => show 0 + 1 * (j 0).val = (j 0).val; omega
  | ⟨2, _⟩ => show 0 + 1 * (j 1).val = (j 1).val; omega

/-- Loading the rectangle at offset `l` of the stacked biases and taking its one row gives layer `l`'s bias. -/
theorem loadB (l : Nat) (hl : l < 3) (x5 : Vec Ideal S3x128 .f32)
    (inb : ∀ a, (![l, 0] : Fin 2 → Nat) a + S1x128.size a ≤ S3x128.size a) :
    row0 (View.ld x5 (Rect.unit (s := S3x128) ![l, 0] S1x128.size inb)) = layerB l hl x5 := by
  funext j
  show x5 ((Rect.unit (s := S3x128) ![l, 0] S1x128.size inb).emb (ix2 (0 : Fin 1) (j 0))) = x5 (ix2 (⟨l, hl⟩ : Fin 3) (j 0))
  refine congrArg x5 (funext fun a => Fin.ext ?_)
  match a with
  | ⟨0, _⟩ => show l + 1 * 0 = l; omega
  | ⟨1, _⟩ => show 0 + 1 * (j 0).val = (j 0).val; omega

/-! ## The body's stages -/

/-- The embedding product. -/
theorem embedK (x : FVec Ideal S1024x64 .bf16) (w : FVec Ideal S64x128 .bf16) :
    matmul dot_S1024x64_S64x128_S1024x128_1_0_0_1_n_n none x w (constant S1024x128 .f32 0x00000000#32) = embed x w := by
  funext j
  exact plain_matmul_apply 1024 64 128 none x w j

/-- A layer's message: the product with the layer's weights plus the bias row broadcast over the nodes. -/
theorem messageK (h : FVec Ideal S1024x128 .bf16) (w : FVec Ideal S128x128 .bf16) (bv : FVec Ideal S1x128 .f32)
    (hb : S1x128.Broadcasts S1024x128) :
    addf (matmul dot_S1024x128_S128x128_S1024x128_1_0_0_1_n_n none h w (constant S1024x128 .f32 0x00000000#32)) (broadcastTo S1024x128 bv hb) = message h w (row0 bv) := by
  funext j
  obtain ⟨p, q, rfl⟩ : ∃ (p : Fin 1024) (q : Fin 128), j = ix2 p q := ⟨j 0, j 1, eq_ix2 j⟩
  show matmul dot_S1024x128_S128x128_S1024x128_1_0_0_1_n_n none h w (constant S1024x128 .f32 0x00000000#32) (ix2 p q) + broadcastTo S1024x128 bv hb (ix2 p q) = _
  rw [broadcastTo_1b_ab_apply, show matmul dot_S1024x128_S128x128_S1024x128_1_0_0_1_n_n none h w (constant S1024x128 .f32 0x00000000#32) (ix2 p q) = _ from plain_matmul_apply 1024 128 128 none h w (ix2 p q)]
  rfl

/-- A layer's aggregation over the nodes, the division by 1.0 and the ReLU. -/
theorem aggregateK (a : FVec Ideal S1024x1024 .bf16) (g : FVec Ideal S1024x128 .bf16) :
    maximumf (divf (matmul dot_S1024x1024_S1024x128_S1024x128_1_0_0_1_n_n none a g (constant S1024x128 .f32 0x00000000#32)) (broadcast S1024x128 (Scalar.ofBits (F := Ideal) .f32 0x3F800000#32)))
      (broadcast S1024x128 (Scalar.ofBits (F := Ideal) .f32 0x00000000#32)) = aggregate a g := by
  funext j
  show max (Ideal.div (matmul dot_S1024x1024_S1024x128_S1024x128_1_0_0_1_n_n none a g (constant S1024x128 .f32 0x00000000#32) j) (Ideal.ofBits .f32 0x3F800000#32)) (Ideal.ofBits .f32 0x00000000#32) = _
  rw [show matmul dot_S1024x1024_S1024x128_S1024x128_1_0_0_1_n_n none a g (constant S1024x128 .f32 0x00000000#32) j = _ from plain_matmul_apply 1024 1024 128 none a g j]
  rfl

/-- The masked latent projection, stored with a leading unit axis, read at an index of the block. -/
theorem projectK (h : FVec Ideal S1024x128 .bf16) (w : FVec Ideal S128x64 .bf16) (bv : FVec Ideal S64 .f32)
    (mk : FVec Ideal S1x1024x1 .f32) (h1 : S64.ShapeCasts S1x64) (h2 : S1x64.Broadcasts S1024x64)
    (h3 : S1x1024x1.ShapeCasts S1024x1) (h4 : S1024x1.Broadcasts S1024x64) (h5 : S1024x64.ShapeCasts S1x1024x64)
    (y : S1x1024x64.Idx) :
    shapeCast S1x1024x64 (mulf (addf (matmul dot_S1024x128_S128x64_S1024x64_1_0_0_1_n_n none h w (constant S1024x64 .f32 0x00000000#32)) (broadcastTo S1024x64 (shapeCast S1x64 bv h1) h2))
        (broadcastTo S1024x64 (shapeCast S1024x1 mk h3) h4)) h5 y
      = project h w bv (slab (0 : Fin 1) mk) (ix2 (y 1) (y 2)) := by
  obtain ⟨u, p, c, rfl⟩ : ∃ (u : Fin 1) (p : Fin 1024) (c : Fin 64), y = ix3 u p c := ⟨y 0, y 1, y 2, eq_ix3 y⟩
  rw [shapeCast_ab_1ab_apply]
  show (matmul dot_S1024x128_S128x64_S1024x64_1_0_0_1_n_n none h w (constant S1024x64 .f32 0x00000000#32) (ix2 p c) + broadcastTo S1024x64 (shapeCast S1x64 bv h1) h2 (ix2 p c))
      * broadcastTo S1024x64 (shapeCast S1024x1 mk h3) h4 (ix2 p c) = _
  rw [broadcastTo_1b_ab_apply, shapeCast_a_1a_apply, broadcastTo_a1_ab_apply, shapeCast_1ab_ab_apply,
    show matmul dot_S1024x128_S128x64_S1024x64_1_0_0_1_n_n none h w (constant S1024x64 .f32 0x00000000#32) (ix2 p c) = _ from plain_matmul_apply 1024 128 64 none h w (ix2 p c)]
  rfl

/-! ## The stored block -/

/-- What the body leaves in the output window's buffer, from the input windows' blocks: one batch element's network of
    the blocks' slabs and the shared weights, at the block index without its unit axis. -/
theorem out_block (x0 : Vec Ideal S1x1024x64 .f32) (x1 : Vec Ideal S1x1024x1024 .f32) (x2 : Vec Ideal S1x1024x1 .f32)
    (x3 : Vec Ideal S64x128 .f32) (x4 : Vec Ideal S3x128x128 .f32) (x5 : Vec Ideal S3x128 .f32)
    (x6 : Vec Ideal S128x64 .f32) (x7 : Vec Ideal S64 .f32) (y : S1x1024x64.Idx) :
    out0_8 x0 x1 x2 x3 x4 x5 x6 x7 y
      = encoder (slab (0 : Fin 1) x0) (slab (0 : Fin 1) x1) (slab (0 : Fin 1) x2) x3 x4 x5 x6 x7 (ix2 (y 1) (y 2)) := by
  unfold out0_8
  rw [View.canon_unit_zero zeros3]
  simp only [View.ld_unit_zero (S := S1x1024x64) zeros3, View.ld_unit_zero (S := S1x1024x1024) zeros3,
    View.ld_unit_zero (S := S1x1024x1) zeros3, View.ld_unit_zero (S := S64x128) zeros2,
    View.ld_unit_zero (S := S128x64) zeros2, View.ld_unit_zero (S := S64) zeros1]
  unfold k0_pay3 k0_pay2 k0_pay1
  dsimp only
  rw [projectK]
  simp only [truncf_ideal, shapeCast_shapeCast, dropUnit, embedK, messageK, aggregateK]
  rw [loadW 0 (by decide), loadW 1 (by decide), loadW 2 (by decide), loadB 0 (by decide), loadB 1 (by decide),
    loadB 2 (by decide)]
  rfl

end Cert.Gnn.Kernel

end
-- ==== Proof.KernelValue.lean ====
/-
  The kernel's result array: `network` of its eight arguments.

  The pallas_call's grid has one point per batch element. At point `t` the windows of the node features, the
  adjacency, the mask and the output are the `t`-th slabs of their arrays (block index `(t, 0, 0)`), and the
  weight windows are their whole arrays (block index all zero, at every point). So what point `t` writes back,
  the body's stored block of those input blocks, is batch element `t`'s network of the slabs, which is block `t`
  of `network` of the arrays; the 32 output blocks tile the result array, so it ends holding `network`.
-/
import proofs.«103890_j28114855919656_1_alg».proof.Proof.Gen.KernelIdeal.Value
import proofs.«103890_j28114855919656_1_alg».proof.Proof.KernelBlock

noncomputable section

namespace Cert.Gnn.KernelRun

open Cert.KernelIdeal Cert.KernelIdeal.Gen Idealize.ShloMosaic Idealize.ShloMosaic.TcCoe Idealize.SL.Sem
open Idealize.ShloMosaic.Pipeline (Dat)
open Idealize.ShloMosaic.ValueIdx Cert.Gnn

variable (m : (ℓ : Loc nD τ sig) → Buf (Elt Ideal) ℓ) (ρ : Dev nD → PrngReg)

/-- The network of the argument arrays as the region finds them. -/
abbrev result (c : Dev nD) : S32x1024x64.Idx → EReal :=
  network (V m c main_arg0) (V m c main_arg1) (V m c main_arg2) (V m c main_arg3) (V m c main_arg4)
    (V m c main_arg5) (V m c main_arg6) (V m c main_arg7)

/-- The printed index maps, decided over the 32 grid points: the batched windows (0, 1, 2 and the output 8) sit at block
    `(t, 0, 0)`, the weight windows at block zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 1) = 0)
    ∧ (win0_8.index t (0 : Fin 3) = t.val ∧ win0_8.index t (1 : Fin 3) = 0 ∧ win0_8.index t (2 : Fin 3) = 0) :=
  (by decide +kernel : ∀ t : Fin grid0.N, _)

/-- The grid has 32 points. -/
theorem point_lt (t : Fin cfg0.N) : t.val < 32 := by
  have h : cfg0.N = 32 := N_0
  have := t.isLt
  omega

/-! ## The input blocks at a point -/

theorem blk0 (c : Dev nD) (t : Fin cfg0.N) :
    slab (0 : Fin 1) (iblk m c 0 t) = slab (B := 32) (N := 1024) (D := 64) ⟨t.val, point_lt t⟩ (V m c main_arg0) := by
  obtain ⟨⟨e0, e1, e2⟩, -⟩ := idx_facts t
  funext j
  show V m c main_arg0 (((cfg0.win 0).blk t).view.emb (ix3 (0 : Fin 1) (j 0) (j 1)))
    = V m c main_arg0 (ix3 (⟨t.val, point_lt t⟩ : Fin 32) (j 0) (j 1))
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 1024 + 1 * (j 0).val = (j 0).val; omega
  | ⟨2, _⟩ => show win0_0.index t (2 : Fin 3) * 64 + 1 * (j 1).val = (j 1).val; omega

theorem blk1 (c : Dev nD) (t : Fin cfg0.N) :
    slab (0 : Fin 1) (iblk m c 1 t) = slab (B := 32) (N := 1024) (D := 1024) ⟨t.val, point_lt t⟩ (V m c main_arg1) := by
  obtain ⟨-, ⟨e0, e1, e2⟩, -⟩ := idx_facts t
  funext j
  show V m c main_arg1 (((cfg0.win 1).blk t).view.emb (ix3 (0 : Fin 1) (j 0) (j 1)))
    = V m c main_arg1 (ix3 (⟨t.val, point_lt t⟩ : Fin 32) (j 0) (j 1))
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 1024 + 1 * (j 0).val = (j 0).val; omega
  | ⟨2, _⟩ => show win0_1.index t (2 : Fin 3) * 1024 + 1 * (j 1).val = (j 1).val; omega

theorem blk2 (c : Dev nD) (t : Fin cfg0.N) :
    slab (0 : Fin 1) (iblk m c 2 t) = slab (B := 32) (N := 1024) (D := 1) ⟨t.val, point_lt t⟩ (V m c main_arg2) := by
  obtain ⟨-, -, ⟨e0, e1, e2⟩, -⟩ := idx_facts t
  funext j
  show V m c main_arg2 (((cfg0.win 2).blk t).view.emb (ix3 (0 : Fin 1) (j 0) (j 1)))
    = V m c main_arg2 (ix3 (⟨t.val, point_lt t⟩ : Fin 32) (j 0) (j 1))
  refine congrArg (V m c main_arg2) (funext fun a => Fin.ext ?_)
  match a with
  | ⟨0, _⟩ => show win0_2.index t (0 : Fin 3) * 1 + 1 * 0 = t.val; omega
  | ⟨1, _⟩ => show win0_2.index t (1 : Fin 3) * 1024 + 1 * (j 0).val = (j 0).val; omega
  | ⟨2, _⟩ => show win0_2.index t (2 : Fin 3) * 1 + 1 * (j 1).val = (j 1).val; omega

theorem blk3 (c : Dev nD) (t : Fin cfg0.N) : iblk m c 3 t = V m c main_arg3 := by
  obtain ⟨-, -, -, ⟨e0, e1⟩, -⟩ := idx_facts t
  funext j
  show V m c main_arg3 (((cfg0.win 3).blk t).view.emb j) = V m c main_arg3 j
  refine congrArg (V m c main_arg3) (funext fun a => Fin.ext ?_)
  match a with
  | ⟨0, _⟩ => show win0_3.index t (0 : Fin 2) * 64 + 1 * (j 0).val = (j 0).val; omega
  | ⟨1, _⟩ => show win0_3.index t (1 : Fin 2) * 128 + 1 * (j 1).val = (j 1).val; omega

theorem blk4 (c : Dev nD) (t : Fin cfg0.N) : iblk m c 4 t = V m c main_arg4 := by
  obtain ⟨-, -, -, -, ⟨e0, e1, e2⟩, -⟩ := idx_facts t
  funext j
  show V m c main_arg4 (((cfg0.win 4).blk t).view.emb j) = V m c main_arg4 j
  refine congrArg (V m c main_arg4) (funext fun a => Fin.ext ?_)
  match a with
  | ⟨0, _⟩ => show win0_4.index t (0 : Fin 3) * 3 + 1 * (j 0).val = (j 0).val; omega
  | ⟨1, _⟩ => show win0_4.index t (1 : Fin 3) * 128 + 1 * (j 1).val = (j 1).val; omega
  | ⟨2, _⟩ => show win0_4.index t (2 : Fin 3) * 128 + 1 * (j 2).val = (j 2).val; omega

theorem blk5 (c : Dev nD) (t : Fin cfg0.N) : iblk m c 5 t = V m c main_arg5 := by
  obtain ⟨-, -, -, -, -, ⟨e0, e1⟩, -⟩ := idx_facts t
  funext j
  show V m c main_arg5 (((cfg0.win 5).blk t).view.emb j) = V m c main_arg5 j
  refine congrArg (V m c main_arg5) (funext fun a => Fin.ext ?_)
  match a with
  | ⟨0, _⟩ => show win0_5.index t (0 : Fin 2) * 3 + 1 * (j 0).val = (j 0).val; omega
  | ⟨1, _⟩ => show win0_5.index t (1 : Fin 2) * 128 + 1 * (j 1).val = (j 1).val; omega

theorem blk6 (c : Dev nD) (t : Fin cfg0.N) : iblk m c 6 t = V m c main_arg6 := by
  obtain ⟨-, -, -, -, -, -, ⟨e0, e1⟩, -⟩ := idx_facts t
  funext j
  show V m c main_arg6 (((cfg0.win 6).blk t).view.emb j) = V m c main_arg6 j
  refine congrArg (V m c main_arg6) (funext fun a => Fin.ext ?_)
  match a with
  | ⟨0, _⟩ => show win0_6.index t (0 : Fin 2) * 128 + 1 * (j 0).val = (j 0).val; omega
  | ⟨1, _⟩ => show win0_6.index t (1 : Fin 2) * 64 + 1 * (j 1).val = (j 1).val; omega

theorem blk7 (c : Dev nD) (t : Fin cfg0.N) : iblk m c 7 t = V m c main_arg7 := by
  obtain ⟨-, -, -, -, -, -, -, e0, -⟩ := idx_facts t
  funext j
  show V m c main_arg7 (((cfg0.win 7).blk t).view.emb j) = V m c main_arg7 j
  refine congrArg (V m c main_arg7) (funext fun a => Fin.ext ?_)
  match a with
  | ⟨0, _⟩ => show win0_7.index t (0 : Fin 1) * 64 + 1 * (j 0).val = (j 0).val; omega

/-- The output block's index at point `t`: batch element `t`, the block's own row and column. -/
theorem out_emb (t : Fin cfg0.N) (y : S1x1024x64.Idx) :
    ((cfg0.win 8).blk t).view.emb y = ix3 (⟨t.val, point_lt t⟩ : Fin 32) (y 1) (y 2) := by
  obtain ⟨-, -, -, -, -, -, -, -, e0, e1, e2⟩ := idx_facts t
  refine funext fun a => Fin.ext ?_
  match a with
  | ⟨0, _⟩ =>
    show win0_8.index t (0 : Fin 3) * 1 + 1 * (y 0).val = t.val
    have : (y 0).val < 1 := (y 0).isLt
    omega
  | ⟨1, _⟩ => show win0_8.index t (1 : Fin 3) * 1024 + 1 * (y 1).val = (y 1).val; omega
  | ⟨2, _⟩ => show win0_8.index t (2 : Fin 3) * 64 + 1 * (y 2).val = (y 2).val; omega

/-! ## What a point writes back, and the array after the run -/

/-- Point `t` writes back block `t` of the network of the argument arrays. -/
theorem flushed_eq (c : Dev nD) (t : Fin cfg0.N) :
    (dats m 0 c).flushed 8 t = ((cfg0.win 8).blk t).view.read (Elt Ideal) (result m c) := by
  rw [Cert.KernelIdeal.Value.flushed8]
  funext y
  show out0_8 (iblk m c 0 t) (iblk m c 1 t) (iblk m c 2 t) (iblk m c 3 t) (iblk m c 4 t) (iblk m c 5 t) (iblk m c 6 t)
      (iblk m c 7 t) y = result m c (((cfg0.win 8).blk t).view.emb y)
  refine (Kernel.out_block (iblk m c 0 t) (iblk m c 1 t) (iblk m c 2 t) (iblk m c 3 t) (iblk m c 4 t) (iblk m c 5 t)
    (iblk m c 6 t) (iblk m c 7 t) y).trans ?_
  rw [out_emb, blk0, blk1, blk2, blk3, blk4, blk5, blk6, blk7]
  rfl

/-- Every index of the result array is in the block of the point its batch coordinate names. -/
theorem cover (i : S32x1024x64.Idx) :
    ∃ t : Fin cfg0.N, (cfg0.win 8).flush t = true ∧ i ∈ ((cfg0.win 8).blk t).view.set := by
  have h0 : (i 0).val < 32 := (i 0).isLt
  have h1 : (i 1).val < 1024 := (i 1).isLt
  have h2 : (i 2).val < 64 := (i 2).isLt
  obtain ⟨t, ht⟩ : ∃ t : Fin cfg0.N, t.val = (i 0).val :=
    ⟨⟨(i 0).val, by show (i 0).val < grid0.N; rw [N_0]; exact h0⟩, rfl⟩
  obtain ⟨-, -, -, -, -, -, -, -, e0, e1, e2⟩ := idx_facts t
  refine ⟨t, flush0_8 t, ?_⟩
  show i ∈ ((View.whole main_v0).slice (win0_8.rect t)).set
  rw [View.set_slice_whole, Rect.mem_set_unit]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 1024 ≤ (i 1).val ∧ (i 1).val < win0_8.index t (1 : Fin 3) * 1024 + 1024
    omega
  | ⟨2, _⟩ =>
    show win0_8.index t (2 : Fin 3) * 64 ≤ (i 2).val ∧ (i 2).val < win0_8.index t (2 : Fin 3) * 64 + 64
    omega

/-- The result array after the run is the network of the argument arrays. -/
theorem final (c : Dev nD) : (dats m 0 c).arrAt 8 cfg0.N = result m c :=
  (dats m 0 c).arrAt_eq_of_cover 8 (result m c) (fun t _ => flushed_eq m c t) (cover)

/-- The kernel's run: every weakly fair execution terminates with the result array at the network of the arguments
    as launched, and the arguments unchanged. -/
theorem run : θ_run defs (onTc (τ := τ) (main (F := Ideal))) ⟨m, fun _ => 0, ρ⟩ fun r => ∀ c : Dev nD,
      r.2.mem ((c : Thread nD τ).loc main_v0) = network (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.Gnn.KernelRun

end
-- ==== Proof.RefStages.lean ====
/-
  The reference program's value: its composed term is `network` of its eight arguments.

  Each stage of the reference acts on all 32 batch elements at once; none mixes two batch elements (the batched
  product `A · g` pairs batch element `b` of `A` with batch element `b` of `g`, the others have no batch axis on
  the right). So batch element `b`'s slab of a stage's result is the one-element stage of `Layers` applied to the
  slabs of its operands: `slab b (stage …) = stage₁ (slab b …)`. Chaining these from the last stage inwards
  turns the reference's term at index `(b, n, k)` into `encoder` of the slabs at `(n, k)`, which is `network`.
  A host `dot_general` at the ideal values is the plain sum over its one contracted axis; the operand
  indices at a result index are the generated read-at-an-index module's `lidx_…` / `ridx_…`.
-/
import proofs.«103890_j28114855919656_1_alg».proof.Proof.Gen.ReferenceIdeal.Read
import proofs.«103890_j28114855919656_1_alg».proof.Proof.Layers
import Idealize.ShloMosaic.Lib.ValueLayout

noncomputable section

open scoped BigOperators

namespace Cert.Gnn.Ref

open Cert.ReferenceIdeal Cert.ReferenceIdeal.Gen Idealize.ShloMosaic Idealize.ShloMosaic.TcCoe Idealize.SL.Sem
open Idealize.ShloMosaic.StableHlo Idealize.ShloMosaic.ValueIdx Cert.ReferenceIdeal Cert.Gnn

/-! ## The three products the layers reuse, read at an index with ANY operands -/

/-- `h · W` for a 128 × 128 weight matrix shared by all batch elements: entry `(b, n, k)` is `∑ i, h[b, n, i] · W[i, k]`. -/
theorem dot_hidden_apply (l : FVec Ideal S32x1024x128 .f32) (r : FVec Ideal S128x128 .f32) (i : S32x1024x128.Idx) :
    Host.dotGeneral dot_S32x1024x128_S128x128_S32x1024x128_2_0_01_1_n_n none l r i = ∑ k : Fin 128, l (Read.lidx_main_v3 i k) * r (Read.ridx_main_v3 i k) := by
  simp only [Host.dotGeneral]
  rw [Ideal.dotGeneral_apply, ← Equiv.sum_comp (ValueIdx.contrEquiv1 dot_S32x1024x128_S128x128_S32x1024x128_2_0_01_1_n_n 128 rfl rfl).symm]
  refine Finset.sum_congr rfl fun k _ => ?_
  have hk := ValueIdx.contrEquiv1_symm_val dot_S32x1024x128_S128x128_S32x1024x128_2_0_01_1_n_n 128 rfl rfl k
  have el : dot_S32x1024x128_S128x128_S32x1024x128_2_0_01_1_n_n.lhsIdx i ((ValueIdx.contrEquiv1 dot_S32x1024x128_S128x128_S32x1024x128_2_0_01_1_n_n 128 rfl rfl).symm k) = Read.lidx_main_v3 i k :=
    funext fun a => Fin.ext (by
      match a with
      | ⟨0, _⟩ => exact Read.lhs_main_v3_0 _ _
      | ⟨1, _⟩ => exact Read.lhs_main_v3_1 _ _
      | ⟨2, _⟩ => exact (Read.lhs_main_v3_2 _ _).trans hk)
  have er : dot_S32x1024x128_S128x128_S32x1024x128_2_0_01_1_n_n.rhsIdx i ((ValueIdx.contrEquiv1 dot_S32x1024x128_S128x128_S32x1024x128_2_0_01_1_n_n 128 rfl rfl).symm k) = Read.ridx_main_v3 i k :=
    funext fun a => Fin.ext (by
      match a with
      | ⟨0, _⟩ => exact (Read.rhs_main_v3_0 _ _).trans hk
      | ⟨1, _⟩ => exact Read.rhs_main_v3_1 _ _)
  rw [el, er]

/-- The batched `A · g`: entry `(b, n, k)` is `∑ m, A[b, n, m] · g[b, m, k]`. -/
theorem dot_adjacency_apply (l : FVec Ideal S32x1024x1024 .f32) (r : FVec Ideal S32x1024x128 .f32) (i : S32x1024x128.Idx) :
    Host.dotGeneral dot_S32x1024x1024_S32x1024x128_S32x1024x128_2_1_1_2_0_0 none l r i = ∑ k : Fin 1024, l (Read.lidx_main_v9 i k) * r (Read.ridx_main_v9 i k) := by
  simp only [Host.dotGeneral]
  rw [Ideal.dotGeneral_apply, ← Equiv.sum_comp (ValueIdx.contrEquiv1 dot_S32x1024x1024_S32x1024x128_S32x1024x128_2_1_1_2_0_0 1024 rfl rfl).symm]
  refine Finset.sum_congr rfl fun k _ => ?_
  have hk := ValueIdx.contrEquiv1_symm_val dot_S32x1024x1024_S32x1024x128_S32x1024x128_2_1_1_2_0_0 1024 rfl rfl k
  have el : dot_S32x1024x1024_S32x1024x128_S32x1024x128_2_1_1_2_0_0.lhsIdx i ((ValueIdx.contrEquiv1 dot_S32x1024x1024_S32x1024x128_S32x1024x128_2_1_1_2_0_0 1024 rfl rfl).symm k) = Read.lidx_main_v9 i k :=
    funext fun a => Fin.ext (by
      match a with
      | ⟨0, _⟩ => exact Read.lhs_main_v9_0 _ _
      | ⟨1, _⟩ => exact Read.lhs_main_v9_1 _ _
      | ⟨2, _⟩ => exact (Read.lhs_main_v9_2 _ _).trans hk)
  have er : dot_S32x1024x1024_S32x1024x128_S32x1024x128_2_1_1_2_0_0.rhsIdx i ((ValueIdx.contrEquiv1 dot_S32x1024x1024_S32x1024x128_S32x1024x128_2_1_1_2_0_0 1024 rfl rfl).symm k) = Read.ridx_main_v9 i k :=
    funext fun a => Fin.ext (by
      match a with
      | ⟨0, _⟩ => exact Read.rhs_main_v9_0 _ _
      | ⟨1, _⟩ => exact (Read.rhs_main_v9_1 _ _).trans hk
      | ⟨2, _⟩ => exact Read.rhs_main_v9_2 _ _)
  rw [el, er]

/-- `h · W_proj`: entry `(b, n, k)` is `∑ i, h[b, n, i] · W_proj[i, k]`. -/
theorem dot_latent_apply (l : FVec Ideal S32x1024x128 .f32) (r : FVec Ideal S128x64 .f32) (i : S32x1024x64.Idx) :
    Host.dotGeneral dot_S32x1024x128_S128x64_S32x1024x64_2_0_01_1_n_n none l r i = ∑ k : Fin 128, l (Read.lidx_main_v37 i k) * r (Read.ridx_main_v37 i k) := by
  simp only [Host.dotGeneral]
  rw [Ideal.dotGeneral_apply, ← Equiv.sum_comp (ValueIdx.contrEquiv1 dot_S32x1024x128_S128x64_S32x1024x64_2_0_01_1_n_n 128 rfl rfl).symm]
  refine Finset.sum_congr rfl fun k _ => ?_
  have hk := ValueIdx.contrEquiv1_symm_val dot_S32x1024x128_S128x64_S32x1024x64_2_0_01_1_n_n 128 rfl rfl k
  have el : dot_S32x1024x128_S128x64_S32x1024x64_2_0_01_1_n_n.lhsIdx i ((ValueIdx.contrEquiv1 dot_S32x1024x128_S128x64_S32x1024x64_2_0_01_1_n_n 128 rfl rfl).symm k) = Read.lidx_main_v37 i k :=
    funext fun a => Fin.ext (by
      match a with
      | ⟨0, _⟩ => exact Read.lhs_main_v37_0 _ _
      | ⟨1, _⟩ => exact Read.lhs_main_v37_1 _ _
      | ⟨2, _⟩ => exact (Read.lhs_main_v37_2 _ _).trans hk)
  have er : dot_S32x1024x128_S128x64_S32x1024x64_2_0_01_1_n_n.rhsIdx i ((ValueIdx.contrEquiv1 dot_S32x1024x128_S128x64_S32x1024x64_2_0_01_1_n_n 128 rfl rfl).symm k) = Read.ridx_main_v37 i k :=
    funext fun a => Fin.ext (by
      match a with
      | ⟨0, _⟩ => exact (Read.rhs_main_v37_0 _ _).trans hk
      | ⟨1, _⟩ => exact Read.rhs_main_v37_1 _ _)
  rw [el, er]

/-! ## Layout stages read at an index -/

/-- A scalar constant broadcast to every entry reads the constant's word. -/
theorem splat_apply (w : BitVec 32) (i : S32x1024x128.Idx) :
    broadcastInDim S32x1024x128 ![] bcast_S_S32x1024x128 (constant (F := Ideal) S_ .f32 w) i = Ideal.ofBits .f32 w :=
  broadcastInDim_apply _ bcast_S_S32x1024x128 (constant (F := Ideal) S_ .f32 w) i ix0 (fun a => a.elim0)

/-- A length-128 bias broadcast along batch and node axes reads the bias at the feature coordinate. -/
theorem bias128_apply (bv : FVec Ideal S128 .f32) (i : S32x1024x128.Idx) :
    (broadcastInDim S32x1024x128 ![0, 1, 2] bcast_S1x1x128_S32x1024x128_0_1_2 (broadcastInDim S1x1x128 ![2] bcast_S128_S1x1x128_2 bv)) i = bv (ix1 (i 2)) := by
  rw [broadcastInDim_apply _ bcast_S1x1x128_S32x1024x128_0_1_2 _ i (ix3 (0 : Fin 1) (0 : Fin 1) (i 2)) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (128 : Nat) = 1 then 0 else (i 2).val; rw [if_neg (by decide)])]
  exact broadcastInDim_apply _ bcast_S128_S1x1x128_2 bv _ (ix1 (i 2)) (fun a => match a with
    | ⟨0, _⟩ => by show (i 2).val = if (128 : Nat) = 1 then 0 else (i 2).val; rw [if_neg (by decide)])

/-- A length-64 bias broadcast along batch and node axes reads the bias at the output coordinate. -/
theorem bias64_apply (bv : FVec Ideal S64 .f32) (i : S32x1024x64.Idx) :
    (broadcastInDim S32x1024x64 ![0, 1, 2] bcast_S1x1x64_S32x1024x64_0_1_2 (broadcastInDim S1x1x64 ![2] bcast_S64_S1x1x64_2 bv)) i
      = bv (ix1 (i 2)) := by
  rw [broadcastInDim_apply _ bcast_S1x1x64_S32x1024x64_0_1_2 _ i (ix3 (0 : Fin 1) (0 : Fin 1) (i 2)) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (64 : Nat) = 1 then 0 else (i 2).val; rw [if_neg (by decide)])]
  exact broadcastInDim_apply _ bcast_S64_S1x1x64_2 bv _ (ix1 (i 2)) (fun a => match a with
    | ⟨0, _⟩ => by show (i 2).val = if (64 : Nat) = 1 then 0 else (i 2).val; rw [if_neg (by decide)])

/-- The node mask's one column broadcast over the 64 output columns reads the mask at `(b, n, 0)`. -/
theorem mask_apply (mk : FVec Ideal S32x1024x1 .f32) (i : S32x1024x64.Idx) :
    broadcastInDim S32x1024x64 ![0, 1, 2] bcast_S32x1024x1_S32x1024x64_0_1_2 mk i = mk (ix3 (i 0) (i 1) (0 : Fin 1)) :=
  broadcastInDim_apply _ bcast_S32x1024x1_S32x1024x64_0_1_2 mk i (ix3 (i 0) (i 1) (0 : Fin 1)) (fun a => match a with
    | ⟨0, _⟩ => by show (i 0).val = if (32 : Nat) = 1 then 0 else (i 0).val; rw [if_neg (by decide)]
    | ⟨1, _⟩ => by show (i 1).val = if (1024 : Nat) = 1 then 0 else (i 1).val; rw [if_neg (by decide)]
    | ⟨2, _⟩ => by show 0 = if (1 : Nat) = 1 then 0 else (i 2).val; rw [if_pos rfl])

/-- Row `l` of the stacked weights, sliced out and reshaped to a matrix, is layer `l`'s weight matrix. -/
theorem sliceW (l : Nat) (hl : l < 3) (wl : FVec Ideal S3x128x128 .f32) (hs : S3x128x128.Slices ![l, 0, 0] S1x128x128)
    (hc : S1x128x128.ShapeCasts S128x128) :
    shapeCast S128x128 (extractStridedSlice S1x128x128 ![l, 0, 0] wl hs) hc = layerW l hl wl := by
  funext j
  obtain ⟨p, q, rfl⟩ : ∃ (p : Fin 128) (q : Fin 128), j = ix2 p q := ⟨j 0, j 1, eq_ix2 j⟩
  rw [shapeCast_1ab_ab_apply]
  exact extractStridedSlice_apply ![l, 0, 0] wl hs (ix3 (0 : Fin 1) p q) (ix3 (⟨l, hl⟩ : Fin 3) p q) (fun a => match a with
    | ⟨0, _⟩ => by show l = l + 0; omega
    | ⟨1, _⟩ => by show p.val = 0 + p.val; omega
    | ⟨2, _⟩ => by show q.val = 0 + q.val; omega)

/-- Row `l` of the stacked biases, sliced out and reshaped to a vector, is layer `l`'s bias. -/
theorem sliceB (l : Nat) (hl : l < 3) (bl : FVec Ideal S3x128 .f32) (hs : S3x128.Slices ![l, 0] S1x128)
    (hc : S1x128.ShapeCasts S128) :
    shapeCast S128 (extractStridedSlice S1x128 ![l, 0] bl hs) hc = layerB l hl bl := by
  funext j
  obtain ⟨q, rfl⟩ : ∃ q : Fin 128, j = ix1 q := ⟨j 0, eq_ix1 j⟩
  rw [shapeCast_1a_a_apply]
  exact extractStridedSlice_apply ![l, 0] bl hs (ix2 (0 : Fin 1) q) (ix2 (⟨l, hl⟩ : Fin 3) q) (fun a => match a with
    | ⟨0, _⟩ => by show l = l + 0; omega
    | ⟨1, _⟩ => by show q.val = 0 + q.val; omega)

/-! ## Batch element `b`'s slab of each stage -/

/-- The embedding. -/
theorem slab_embed (x : FVec Ideal S32x1024x64 .f32) (w : FVec Ideal S64x128 .f32) (b : Fin 32) :
    slab b (Host.dotGeneral dot_S32x1024x64_S64x128_S32x1024x128_2_0_01_1_n_n none x w) = embed (slab b x) w := by
  funext j
  show Read.val_main_v0 (F := Ideal) x w (ix3 b (j 0) (j 1)) = _
  rw [Read.val_main_v0_apply]
  refine Finset.sum_congr rfl fun k _ => ?_
  have e1 : Read.lidx_main_v0 (ix3 b (j 0) (j 1)) k = ix3 b (j 0) k :=
    funext fun a => by match a with | ⟨0, _⟩ => rfl | ⟨1, _⟩ => rfl | ⟨2, _⟩ => rfl
  have e2 : Read.ridx_main_v0 (ix3 b (j 0) (j 1)) k = ix2 k (j 1) :=
    funext fun a => by match a with | ⟨0, _⟩ => rfl | ⟨1, _⟩ => rfl
  rw [e1, e2]
  rfl

/-- A layer's message. -/
theorem slab_message (h : FVec Ideal S32x1024x128 .f32) (w : FVec Ideal S128x128 .f32) (bv : FVec Ideal S128 .f32) (b : Fin 32) :
    slab b (addf (Host.dotGeneral dot_S32x1024x128_S128x128_S32x1024x128_2_0_01_1_n_n none h w) (broadcastInDim S32x1024x128 ![0, 1, 2] bcast_S1x1x128_S32x1024x128_0_1_2 (broadcastInDim S1x1x128 ![2] bcast_S128_S1x1x128_2 bv))) = message (slab b h) w bv := by
  funext j
  show Host.dotGeneral dot_S32x1024x128_S128x128_S32x1024x128_2_0_01_1_n_n none h w (ix3 b (j 0) (j 1)) + (broadcastInDim S32x1024x128 ![0, 1, 2] bcast_S1x1x128_S32x1024x128_0_1_2 (broadcastInDim S1x1x128 ![2] bcast_S128_S1x1x128_2 bv)) (ix3 b (j 0) (j 1)) = _
  rw [dot_hidden_apply, bias128_apply]
  refine congrArg₂ (· + ·) (Finset.sum_congr rfl fun k _ => ?_) rfl
  have e1 : Read.lidx_main_v3 (ix3 b (j 0) (j 1)) k = ix3 b (j 0) k :=
    funext fun a => by match a with | ⟨0, _⟩ => rfl | ⟨1, _⟩ => rfl | ⟨2, _⟩ => rfl
  have e2 : Read.ridx_main_v3 (ix3 b (j 0) (j 1)) k = ix2 k (j 1) :=
    funext fun a => by match a with | ⟨0, _⟩ => rfl | ⟨1, _⟩ => rfl
  rw [e1, e2]
  rfl

/-- A layer's aggregation over the nodes, the division by 1.0 and the ReLU. -/
theorem slab_aggregate (a : FVec Ideal S32x1024x1024 .f32) (g : FVec Ideal S32x1024x128 .f32) (b : Fin 32) :
    slab b (maximumf (Host.divf (Host.dotGeneral dot_S32x1024x1024_S32x1024x128_S32x1024x128_2_1_1_2_0_0 none a g) (broadcastInDim S32x1024x128 ![] bcast_S_S32x1024x128 (constant (F := Ideal) S_ .f32 0x3F800000#32))) (broadcastInDim S32x1024x128 ![] bcast_S_S32x1024x128 (constant (F := Ideal) S_ .f32 0x00000000#32))) = aggregate (slab b a) (slab b g) := by
  funext j
  show max (Ideal.div (Host.dotGeneral dot_S32x1024x1024_S32x1024x128_S32x1024x128_2_1_1_2_0_0 none a g (ix3 b (j 0) (j 1))) ((broadcastInDim S32x1024x128 ![] bcast_S_S32x1024x128 (constant (F := Ideal) S_ .f32 0x3F800000#32)) (ix3 b (j 0) (j 1)))) ((broadcastInDim S32x1024x128 ![] bcast_S_S32x1024x128 (constant (F := Ideal) S_ .f32 0x00000000#32)) (ix3 b (j 0) (j 1))) = _
  rw [dot_adjacency_apply, splat_apply, splat_apply]
  refine congrArg₂ max (congrArg₂ Ideal.div (Finset.sum_congr rfl fun k _ => ?_) rfl) rfl
  have e1 : Read.lidx_main_v9 (ix3 b (j 0) (j 1)) k = ix3 b (j 0) k :=
    funext fun a => by match a with | ⟨0, _⟩ => rfl | ⟨1, _⟩ => rfl | ⟨2, _⟩ => rfl
  have e2 : Read.ridx_main_v9 (ix3 b (j 0) (j 1)) k = ix3 b k (j 1) :=
    funext fun a => by match a with | ⟨0, _⟩ => rfl | ⟨1, _⟩ => rfl | ⟨2, _⟩ => rfl
  rw [e1, e2]
  rfl

/-- The masked latent projection, at an index. -/
theorem project_apply (h : FVec Ideal S32x1024x128 .f32) (w : FVec Ideal S128x64 .f32) (bv : FVec Ideal S64 .f32)
    (mk : FVec Ideal S32x1024x1 .f32) (b : Fin 32) (n : Fin 1024) (c : Fin 64) :
    mulf (addf (Host.dotGeneral dot_S32x1024x128_S128x64_S32x1024x64_2_0_01_1_n_n none h w) (broadcastInDim S32x1024x64 ![0, 1, 2] bcast_S1x1x64_S32x1024x64_0_1_2 (broadcastInDim S1x1x64 ![2] bcast_S64_S1x1x64_2 bv))) (broadcastInDim S32x1024x64 ![0, 1, 2] bcast_S32x1024x1_S32x1024x64_0_1_2 mk) (ix3 b n c)
      = project (slab b h) w bv (slab b mk) (ix2 n c) := by
  show (Host.dotGeneral dot_S32x1024x128_S128x64_S32x1024x64_2_0_01_1_n_n none h w (ix3 b n c) + (broadcastInDim S32x1024x64 ![0, 1, 2] bcast_S1x1x64_S32x1024x64_0_1_2 (broadcastInDim S1x1x64 ![2] bcast_S64_S1x1x64_2 bv)) (ix3 b n c)) * (broadcastInDim S32x1024x64 ![0, 1, 2] bcast_S32x1024x1_S32x1024x64_0_1_2 mk (ix3 b n c)) = _
  rw [dot_latent_apply, bias64_apply, mask_apply]
  refine congrArg₂ (· * ·) (congrArg₂ (· + ·) (Finset.sum_congr rfl fun k _ => ?_) rfl) rfl
  have e1 : Read.lidx_main_v37 (ix3 b n c) k = ix3 b n k :=
    funext fun a => by match a with | ⟨0, _⟩ => rfl | ⟨1, _⟩ => rfl | ⟨2, _⟩ => rfl
  have e2 : Read.ridx_main_v37 (ix3 b n c) k = ix2 k c :=
    funext fun a => by match a with | ⟨0, _⟩ => rfl | ⟨1, _⟩ => rfl
  rw [e1, e2]
  rfl

/-! ## The whole reference -/

/-- The reference's composed term is the network of its arguments. -/
theorem value (x0 : FVec Ideal S32x1024x64 .f32) (x1 : FVec Ideal S32x1024x1024 .f32) (x2 : FVec Ideal S32x1024x1 .f32)
    (x3 : FVec Ideal S64x128 .f32) (x4 : FVec Ideal S3x128x128 .f32) (x5 : FVec Ideal S3x128 .f32)
    (x6 : FVec Ideal S128x64 .f32) (x7 : FVec Ideal S64 .f32) :
    mulf (addf (Host.dotGeneral dot_S32x1024x128_S128x64_S32x1024x64_2_0_01_1_n_n none (maximumf (Host.divf (Host.dotGeneral dot_S32x1024x1024_S32x1024x128_S32x1024x128_2_1_1_2_0_0 none (x1) (addf (Host.dotGeneral dot_S32x1024x128_S128x128_S32x1024x128_2_0_01_1_n_n none (maximumf (Host.divf (Host.dotGeneral dot_S32x1024x1024_S32x1024x128_S32x1024x128_2_1_1_2_0_0 none (x1) (addf (Host.dotGeneral dot_S32x1024x128_S128x128_S32x1024x128_2_0_01_1_n_n none (maximumf (Host.divf (Host.dotGeneral dot_S32x1024x1024_S32x1024x128_S32x1024x128_2_1_1_2_0_0 none (x1) (addf (Host.dotGeneral dot_S32x1024x128_S128x128_S32x1024x128_2_0_01_1_n_n none (Host.dotGeneral dot_S32x1024x64_S64x128_S32x1024x128_2_0_01_1_n_n none (x0) (x3)) (shapeCast _ (extractStridedSlice S1x128x128 ![0, 0, 0] (x4) slices_S3x128x128_S1x128x128_0_0_0) shapeCasts_S1x128x128_S128x128)) (broadcastInDim S32x1024x128 ![0, 1, 2] bcast_S1x1x128_S32x1024x128_0_1_2 (broadcastInDim S1x1x128 ![2] bcast_S128_S1x1x128_2 (shapeCast _ (extractStridedSlice S1x128 ![0, 0] (x5) slices_S3x128_S1x128_0_0) shapeCasts_S1x128_S128))))) (broadcastInDim S32x1024x128 ![] bcast_S_S32x1024x128 (constant S_ .f32 0x3F800000#32))) (broadcastInDim S32x1024x128 ![] bcast_S_S32x1024x128 (constant S_ .f32 0x00000000#32))) (shapeCast _ (extractStridedSlice S1x128x128 ![1, 0, 0] (x4) slices_S3x128x128_S1x128x128_1_0_0) shapeCasts_S1x128x128_S128x128)) (broadcastInDim S32x1024x128 ![0, 1, 2] bcast_S1x1x128_S32x1024x128_0_1_2 (broadcastInDim S1x1x128 ![2] bcast_S128_S1x1x128_2 (shapeCast _ (extractStridedSlice S1x128 ![1, 0] (x5) slices_S3x128_S1x128_1_0) shapeCasts_S1x128_S128))))) (broadcastInDim S32x1024x128 ![] bcast_S_S32x1024x128 (constant S_ .f32 0x3F800000#32))) (broadcastInDim S32x1024x128 ![] bcast_S_S32x1024x128 (constant S_ .f32 0x00000000#32))) (shapeCast _ (extractStridedSlice S1x128x128 ![2, 0, 0] (x4) slices_S3x128x128_S1x128x128_2_0_0) shapeCasts_S1x128x128_S128x128)) (broadcastInDim S32x1024x128 ![0, 1, 2] bcast_S1x1x128_S32x1024x128_0_1_2 (broadcastInDim S1x1x128 ![2] bcast_S128_S1x1x128_2 (shapeCast _ (extractStridedSlice S1x128 ![2, 0] (x5) slices_S3x128_S1x128_2_0) shapeCasts_S1x128_S128))))) (broadcastInDim S32x1024x128 ![] bcast_S_S32x1024x128 (constant S_ .f32 0x3F800000#32))) (broadcastInDim S32x1024x128 ![] bcast_S_S32x1024x128 (constant S_ .f32 0x00000000#32))) (x6)) (broadcastInDim S32x1024x64 ![0, 1, 2] bcast_S1x1x64_S32x1024x64_0_1_2 (broadcastInDim S1x1x64 ![2] bcast_S64_S1x1x64_2 (x7)))) (broadcastInDim S32x1024x64 ![0, 1, 2] bcast_S32x1024x1_S32x1024x64_0_1_2 (x2))
      = network x0 x1 x2 x3 x4 x5 x6 x7 := by
  funext i
  obtain ⟨b, n, c, rfl⟩ : ∃ (b : Fin 32) (n : Fin 1024) (c : Fin 64), i = ix3 b n c := ⟨i 0, i 1, i 2, eq_ix3 i⟩
  rw [project_apply, slab_aggregate, slab_message, slab_aggregate, slab_message, slab_aggregate, slab_message, slab_embed]
  simp only [sliceW 0 (by decide), sliceW 1 (by decide), sliceW 2 (by decide),
    sliceB 0 (by decide), sliceB 1 (by decide), sliceB 2 (by decide)]
  rfl

end Cert.Gnn.Ref

end
-- ==== Proof.lean ====
/-
  A three-layer graph convolutional encoder over 32 graphs of 1024 nodes, as one Pallas kernel against its jnp reference:
  both compute, for each batch element,
    h₀ = x · W_embed;   g_l = h_l · Wl[l] + bl[l],  h_{l+1} = max ((A · g_l) / 1, 0)  for l = 0, 1, 2;
    out = (h₃ · W_proj + b_proj) · mask.
  The kernel does one batch element per grid point, with every matrix product on the matrix unit after narrowing its
  operands to bf16; the reference does all batch elements at once with `dot_general`s. Over the extended reals the
  narrowing is the identity and each product is the plain sum over the contracted index, so the two programs compute
  the same function, `Cert.Gnn.network` (Proof/Layers.lean), entry by entry, and no algebraic law beyond reading both sums
  over the same index is needed — in particular nothing about the inputs' finiteness.

  * Proof/Layers.lean: the one-element stages and `network`.
  * Proof/LibPlainMatmul.lean: a plain matrix-unit product and a column broadcast read at an entry.
  * Proof/KernelBlock.lean: the body's stored block is one batch element's network of the input blocks.
  * Proof/KernelValue.lean: point `t` writes block `t` of `network`; the blocks tile the result; the kernel's run.
  * Proof/RefStages.lean: batch element `b`'s slab of each reference stage is the one-element stage of the slabs; the
    reference's term is `network`.
  The frames of the two kernel programs are the generated frame certificates, the reference's frame its generated run;
  the idealization rewrote nothing, so `preserves` is trivial.
-/
import proofs.«103890_j28114855919656_1_alg».proof.Defs
import proofs.«103890_j28114855919656_1_alg».proof.Proof.Gen.Kernel
import proofs.«103890_j28114855919656_1_alg».proof.Proof.Gen.Kernel.Skeleton
import proofs.«103890_j28114855919656_1_alg».proof.Proof.Gen.Kernel.Launch
import proofs.«103890_j28114855919656_1_alg».proof.Proof.Gen.Kernel.Points
import proofs.«103890_j28114855919656_1_alg».proof.Proof.Gen.Kernel.Frame
import proofs.«103890_j28114855919656_1_alg».proof.Proof.Gen.KernelIdeal
import proofs.«103890_j28114855919656_1_alg».proof.Proof.Gen.KernelIdeal.Skeleton
import proofs.«103890_j28114855919656_1_alg».proof.Proof.Gen.KernelIdeal.Launch
import proofs.«103890_j28114855919656_1_alg».proof.Proof.Gen.KernelIdeal.Points
import proofs.«103890_j28114855919656_1_alg».proof.Proof.Gen.KernelIdeal.Frame
import proofs.«103890_j28114855919656_1_alg».proof.Proof.Gen.ReferenceIdeal
import proofs.«103890_j28114855919656_1_alg».proof.Proof.Gen.Pre_finite_inputs
import proofs.«103890_j28114855919656_1_alg».proof.Proof.Gen.KernelIdeal.Value
import proofs.«103890_j28114855919656_1_alg».proof.Proof.Gen.ReferenceIdeal.Run
import proofs.«103890_j28114855919656_1_alg».proof.Proof.Gen.ReferenceIdeal.Read
import proofs.«103890_j28114855919656_1_alg».proof.Proof.KernelValue
import proofs.«103890_j28114855919656_1_alg».proof.Proof.RefStages
import Idealize.ShloMosaic.Adequacy
import Idealize.ShloMosaic.Init

noncomputable section

namespace Cert.Proof

open Idealize.ShloMosaic Idealize.SL.Sem Cert.Kernel

/-- The word-level kernel runs and keeps its arguments: the generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `network` of the arguments: the
    kernel's by its blocks (Proof/KernelValue.lean), the reference's by its stages' slabs (Proof/RefStages.lean). -/
theorem algebraic : Cert.algebraic_KernelIdeal_ReferenceIdeal := by
  intro m ρ m' ρ' _ hagree
  refine ⟨_, Cert.Gnn.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.Gnn.Ref.value]
  obtain ⟨a0, a1, a2, a3, a4, a5, a6, a7⟩ := hagree c
  rw [a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
